-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x2048x64 : Shape := ⟨4, ![1, 16, 2048, 64]⟩
abbrev S_ : Shape := ⟨0, ![]⟩

class Facts : Prop where
  bcast_S_S1x16x2048x64 : S_.BroadcastsInDim S1x16x2048x64 (![] : Fin 0 → Fin S1x16x2048x64.rank)
  reducesTo_S1x16x2048x64_S_d0_1_2_3 : S1x16x2048x64.ReducesTo [0, 1, 2, 3] S_
  h_S_ : 0 < S_.numel

variable [Facts]

def fn {F : FTy → Type} [FloatOps F] (main_arg0 : FVec F S1x16x2048x64 .f32) (main_arg1 : FVec F S1x16x2048x64 .f32) (main_arg2 : FVec F S1x16x2048x64 .f32) : IVec S_ 1 :=
  let main_v0 : FVec F S1x16x2048x64 .f32 := Host.absf main_arg0
  let main_cst : FVec F S_ .f32 := constant S_ .f32 0x7F800000#32
  let main_v1 : FVec F S1x16x2048x64 .f32 := broadcastInDim S1x16x2048x64 ![] bcast_S_S1x16x2048x64 main_cst
  let main_v2 : IVec S1x16x2048x64 1 := cmpf .olt main_v0 main_v1
  let main_c : IVec S_ 1 := constantI S_ 1 1#1
  let main_v3 : IVec S_ 1 := (fun x v => Host.reduce IntOp.andi x v reducesTo_S1x16x2048x64_S_d0_1_2_3 h_S_) main_v2 main_c
  let main_v4 : FVec F S1x16x2048x64 .f32 := Host.absf main_arg1
  let main_cst_0 : FVec F S_ .f32 := constant S_ .f32 0x7F800000#32
  let main_v5 : FVec F S1x16x2048x64 .f32 := broadcastInDim S1x16x2048x64 ![] bcast_S_S1x16x2048x64 main_cst_0
  let main_v6 : IVec S1x16x2048x64 1 := cmpf .olt main_v4 main_v5
  let main_c_1 : IVec S_ 1 := constantI S_ 1 1#1
  let main_v7 : IVec S_ 1 := (fun x v => Host.reduce IntOp.andi x v reducesTo_S1x16x2048x64_S_d0_1_2_3 h_S_) main_v6 main_c_1
  let main_v8 : IVec S_ 1 := andi main_v3 main_v7
  let main_v9 : FVec F S1x16x2048x64 .f32 := Host.absf main_arg2
  let main_cst_2 : FVec F S_ .f32 := constant S_ .f32 0x7F800000#32
  let main_v10 : FVec F S1x16x2048x64 .f32 := broadcastInDim S1x16x2048x64 ![] bcast_S_S1x16x2048x64 main_cst_2
  let main_v11 : IVec S1x16x2048x64 1 := cmpf .olt main_v9 main_v10
  let main_c_3 : IVec S_ 1 := constantI S_ 1 1#1
  let main_v12 : IVec S_ 1 := (fun x v => Host.reduce IntOp.andi x v reducesTo_S1x16x2048x64_S_d0_1_2_3 h_S_) main_v11 main_c_3
  let main_v13 : IVec S_ 1 := andi main_v8 main_v12
  main_v13
-- ==== Kernel.lean ====
abbrev S1x16x2048x64 : Shape := ⟨4, ![1, 16, 2048, 64]⟩
abbrev S16x2048x64 : Shape := ⟨3, ![16, 2048, 64]⟩
abbrev S1x256x64 : Shape := ⟨3, ![1, 256, 64]⟩
abbrev S1x2048x64 : Shape := ⟨3, ![1, 2048, 64]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 8
  | .smem => 0
  | _ => 0

abbrev bufTy : (tb : Table) → Fin (tcTables nBuf tb) → BufTy
  | .hbm, ⟨0, _⟩ => ⟨S1x16x2048x64, .f32⟩
  | .hbm, ⟨1, _⟩ => ⟨S1x16x2048x64, .f32⟩
  | .hbm, ⟨2, _⟩ => ⟨S1x16x2048x64, .f32⟩
  | .hbm, ⟨3, _⟩ => ⟨S16x2048x64, .f32⟩
  | .hbm, ⟨4, _⟩ => ⟨S16x2048x64, .f32⟩
  | .hbm, ⟨5, _⟩ => ⟨S16x2048x64, .f32⟩
  | .hbm, ⟨6, _⟩ => ⟨S16x2048x64, .f32⟩
  | .hbm, ⟨7, _⟩ => ⟨S1x16x2048x64, .f32⟩
  | .local _ .vmem, ⟨0, _⟩ => ⟨S1x256x64, .f32⟩
  | .local _ .vmem, ⟨1, _⟩ => ⟨S1x256x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x256x64, .f32⟩
  | .local _ .vmem, ⟨7, _⟩ => ⟨S1x256x64, .f32⟩
  | _, _ => ⟨S1x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S1x16x2048x64_S16x2048x64 : S1x16x2048x64.ShapeCasts S16x2048x64
  shapeCasts_S16x2048x64_S1x16x2048x64 : S16x2048x64.ShapeCasts S1x16x2048x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  reduces_S256x2048_S256 : S256x2048.Reduces [1] S256
  shapeCasts_S256_S256x1 : S256.ShapeCasts S256x1
  broadcasts_S256x1_S256x64 : S256x1.Broadcasts S256x64
  shapeCasts_S256x64_S1x256x64 : S256x64.ShapeCasts S1x256x64
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S16x2048x64.size a
  hwx0_0 : ∀ i : grid0.Coords, EltTy.bits .f32 = 32 ∨ (Rect.block (s := S16x2048x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x64.size a ≤ S16x2048x64.size a
  hwx0_3 : ∀ i : grid0.Coords, EltTy.bits .f32 = 32 ∨ (Rect.block (s := S16x2048x64) S1x256x64.size (cc0_transform_3 i) (hinb0_3 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_call0_v0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S1x256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x16x2048x64 : Shape := ⟨4, ![1, 16, 2048, 64]⟩
abbrev S_ : Shape := ⟨0, ![]⟩
abbrev S1x16x2048x2048 : Shape := ⟨4, ![1, 16, 2048, 2048]⟩
abbrev S1x16x2048 : Shape := ⟨3, ![1, 16, 2048]⟩
abbrev S1x16x2048x1 : Shape := ⟨4, ![1, 16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S1x16x2048x64, .f32⟩
  | .hbm, ⟨1, _⟩ => ⟨S1x16x2048x64, .f32⟩
  | .hbm, ⟨2, _⟩ => ⟨S1x16x2048x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x16x2048x2048, .f32⟩
  | .hbm, ⟨8, _⟩ => ⟨S1x16x2048x2048, .f32⟩
  | .hbm, ⟨9, _⟩ => ⟨S1x16x2048x2048, .f32⟩
  | .hbm, ⟨10, _⟩ => ⟨S_, .f32⟩
  | .hbm, ⟨11, _⟩ => ⟨S1x16x2048, .f32⟩
  | .hbm, ⟨12, _⟩ => ⟨S1x16x2048x1, .f32⟩
  | .hbm, ⟨13, _⟩ => ⟨S1x16x2048x2048, .f32⟩
  | .hbm, ⟨14, _⟩ => ⟨S1x16x2048x2048, .f32⟩
  | .hbm, ⟨15, _⟩ => ⟨S1x16x2048x2048, .f32⟩
  | .hbm, ⟨16, _⟩ => ⟨S_, .f32⟩
  | .hbm, ⟨17, _⟩ => ⟨S1x16x2048, .f32⟩
  | .hbm, ⟨18, _⟩ => ⟨S1x16x2048x1, .f32⟩
  | .hbm, ⟨19, _⟩ => ⟨S1x16x2048x2048, .f32⟩
  | .hbm, ⟨20, _⟩ => ⟨S1x16x2048x2048, .f32⟩
  | .hbm, ⟨21, _⟩ => ⟨S1x16x2048x64, .f32⟩
  | _, _ => ⟨S1x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S1x16x2048x2048 : S_.BroadcastsInDim S1x16x2048x2048 (![] : Fin 0 → Fin S1x16x2048x2048.rank)
  reducesTo_S1x16x2048x2048_S1x16x2048_d3 : S1x16x2048x2048.ReducesTo [3] S1x16x2048
  h_S_ : 0 < S_.numel
  bcast_S1x16x2048_S1x16x2048x1_0_1_2 : S1x16x2048.BroadcastsInDim S1x16x2048x1 (![0, 1, 2] : Fin 3 → Fin S1x16x2048x1.rank)
  bcast_S1x16x2048x1_S1x16x2048x2048_0_1_2_3 : S1x16x2048x1.BroadcastsInDim S1x16x2048x2048 (![0, 1, 2, 3] : Fin 4 → Fin S1x16x2048x2048.rank)
  dot_S1x16x2048x64_S1x16x2048x64_S1x16x2048x2048_3_3_2_2_01_01_wf : DotDims.WF S1x16x2048x64 S1x16x2048x64 S1x16x2048x2048 [3] [3] [2] [2] [0, 1] [0, 1]
  dot_S1x16x2048x2048_S1x16x2048x64_S1x16x2048x64_3_2_2_3_01_01_wf : DotDims.WF S1x16x2048x2048 S1x16x2048x64 S1x16x2048x64 [3] [2] [2] [3] [0, 1] [0, 1]

variable [Facts₀]

def dot_S1x16x2048x64_S1x16x2048x64_S1x16x2048x2048_3_3_2_2_01_01 : DotDims S1x16x2048x64 S1x16x2048x64 S1x16x2048x2048 where
  lhsContracting := [3]
  rhsContracting := [3]
  lhsNonContracting := [2]
  rhsNonContracting := [2]
  lhsBatch := [0, 1]
  rhsBatch := [0, 1]
  wf := dot_S1x16x2048x64_S1x16x2048x64_S1x16x2048x2048_3_3_2_2_01_01_wf
def dot_S1x16x2048x2048_S1x16x2048x64_S1x16x2048x64_3_2_2_3_01_01 : DotDims S1x16x2048x2048 S1x16x2048x64 S1x16x2048x64 where
  lhsContracting := [3]
  rhsContracting := [2]
  lhsNonContracting := [2]
  rhsNonContracting := [3]
  lhsBatch := [0, 1]
  rhsBatch := [0, 1]
  wf := dot_S1x16x2048x2048_S1x16x2048x64_S1x16x2048x64_3_2_2_3_01_01_wf

class Facts : Prop extends Facts₀ where

variable [Facts]
-- ==== Proof.Spec.lean ====
/-
  The mathematics both programs compute, stated once.

  For one head `h`, one query row `p` and one output column `d` the result is

      ( Σ_j exp(ℓ_j) · v[h, j, d] ) / ( Σ_j exp(ℓ_j) ),     ℓ_j = ( Σ_e q[h, p, e] · k[h, j, e] ) · (1/8),

  the softmax-weighted average of the value rows (`attn`). One program computes exactly this
  quotient; the other subtracts the row maximum `M` from every logit first, normalises the weights
  and only then contracts with `v`. Over the reals the two agree because
  `exp(ℓ − M) = exp ℓ / exp M` and the common positive factor `1 / exp M` cancels between each
  weight and the normaliser (`softmax_shift`). The extended reals do not have that cancellation at
  the infinities, which is why the statement is made for entries that are real numbers
  (`softmax_shift_ereal`). The scale `1 / sqrt 64` is `1/8` exactly, since `64 = 8²`.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-! ## The float words the two programs spell -/

/-- `64.0` denotes the real `64`. -/
theorem ofBits_64 : Ideal.ofBits .f32 0x42800000#32 = ((64 : ℝ) : EReal) := by
  simp [Ideal.ofBits, Ideal.ieee, -EReal.coe_mul]; norm_num

/-- `1.0` denotes the real `1`. -/
theorem ofBits_one : Ideal.ofBits .f32 0x3F800000#32 = ((1 : ℝ) : EReal) := by
  simp [Ideal.ofBits, Ideal.ieee, -EReal.coe_mul]; norm_num

/-- `0.125` denotes the real `1/8`. -/
theorem ofBits_eighth : Ideal.ofBits .f32 0x3E000000#32 = ((1 / 8 : ℝ) : EReal) := by
  simp [Ideal.ofBits, Ideal.ieee, -EReal.coe_mul]; norm_num

/-- The pattern of `-inf` denotes the bottom of the extended reals. -/
theorem ofBits_neg_inf : Ideal.ofBits .f32 0xFF800000#32 = (⊥ : EReal) := by
  simp [Ideal.ofBits, Ideal.ieee]

/-- `64` is the square of `8`. -/
theorem sqrt_64 : Real.sqrt 64 = 8 := by
  rw [show (64 : ℝ) = 8 ^ 2 by norm_num]; exact Real.sqrt_sq (by norm_num)

/-! ## Arithmetic on extended reals that are real numbers -/

/-- The quotient of two reals, the divisor not zero, is the real quotient. -/
theorem div_coe_coe (a b : ℝ) (hb : b ≠ 0) : Ideal.div (a : EReal) (b : EReal) = ((a / b : ℝ) : EReal) := by
  rw [Ideal.div_coe hb, ← EReal.coe_mul, mul_one_div]

/-- A finite sum of reals, taken in the extended reals, is the real sum. -/
theorem coe_sum {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The running maximum, started at `-∞`, of a nonempty finite family of reals is a real. -/
theorem fold_max_coe {ι : Type*} (s : Finset ι) (hs : s.Nonempty) (f : ι → ℝ) :
    ∃ M : ℝ, s.fold max (⊥ : EReal) (fun k => ((f k : ℝ) : EReal)) = (M : EReal) := by
  induction hs using Finset.Nonempty.cons_induction with
  | singleton a => exact ⟨f a, by rw [Finset.fold_singleton]; exact max_bot_right _⟩
  | cons a s ha hs ih =>
    obtain ⟨M, hM⟩ := ih
    exact ⟨max (f a) M, by rw [Finset.fold_cons, hM]; exact (EReal.coe_strictMono.monotone.map_max).symm⟩

/-- The reference's scale, `1 / sqrt 64`, is `1/8`. -/
theorem scale_ref :
    Ideal.div (Ideal.ofBits .f32 0x3F800000#32) (Ideal.sqrt (Ideal.ofBits .f32 0x42800000#32)) = ((1 / 8 : ℝ) : EReal) := by
  rw [ofBits_one, ofBits_64, Ideal.sqrt_coe, if_neg (by norm_num), sqrt_64, div_coe_coe _ _ (by norm_num)]

/-! ## Subtracting the row maximum does not change the weighted average -/

/-- Over the reals: weights `exp(ℓ_k − M)` normalised by their sum, then averaged against `v`, give
    the quotient of `Σ exp(ℓ_k) v_k` by `Σ exp(ℓ_k)`, whatever the shift `M`. -/
theorem softmax_shift {ι : Type*} [Fintype ι] [Nonempty ι] (l v : ι → ℝ) (M : ℝ) :
    ∑ k, Real.exp (l k - M) / (∑ j, Real.exp (l j - M)) * v k
      = (∑ k, Real.exp (l k) * v k) / ∑ j, Real.exp (l j) := by
  have hS : 0 < ∑ j, Real.exp (l j) := Finset.sum_pos (fun j _ => Real.exp_pos _) Finset.univ_nonempty
  have hM : 0 < Real.exp M := Real.exp_pos M
  have e : ∀ k, Real.exp (l k - M) = Real.exp (l k) / Real.exp M := fun k => Real.exp_sub _ _
  have hden : (∑ j, Real.exp (l j - M)) = (∑ j, Real.exp (l j)) / Real.exp M := by
    simp only [e]; rw [Finset.sum_div]
  rw [Finset.sum_div _ _ (∑ j, Real.exp (l j))]
  refine Finset.sum_congr rfl fun k _ => ?_
  rw [hden, e]
  field_simp

/-- The same at the extended reals, for logits, values and a shift that are real numbers. -/
theorem softmax_shift_ereal {ι : Type*} [Fintype ι] [Nonempty ι] (l v : ι → ℝ) (M : ℝ) :
    ∑ k, Ideal.div (Ideal.exp ((l k : EReal) - (M : EReal)))
          ((0 : EReal) + ∑ j, Ideal.exp ((l j : EReal) - (M : EReal))) * (v k : EReal)
      = Ideal.div (∑ k, Ideal.exp (l k : EReal) * (v k : EReal)) (∑ j, Ideal.exp (l j : EReal)) := by
  have hS : (∑ j, Real.exp (l j)) ≠ 0 :=
    (Finset.sum_pos (fun j _ => Real.exp_pos _) Finset.univ_nonempty).ne'
  have hS' : (∑ j, Real.exp (l j - M)) ≠ 0 :=
    (Finset.sum_pos (fun j _ => Real.exp_pos _) Finset.univ_nonempty).ne'
  have h1 : ∀ k, Ideal.exp ((l k : EReal) - (M : EReal)) = ((Real.exp (l k - M) : ℝ) : EReal) := fun k => by
    rw [← EReal.coe_sub]; rfl
  have h2 : ∀ k, Ideal.exp (l k : EReal) = ((Real.exp (l k) : ℝ) : EReal) := fun k => rfl
  simp only [h1, h2, zero_add, coe_sum, ← EReal.coe_mul]
  rw [div_coe_coe _ _ hS]
  simp only [div_coe_coe _ _ hS', ← EReal.coe_mul, coe_sum]
  exact congrArg _ (softmax_shift l v M)

/-! ## The result array as one function of the three argument arrays -/

/-- The shape of `q`, `k`, `v` and of the result: one batch, 16 heads, 2048 rows, 64 columns. -/
abbrev SQ : Shape := ⟨4, ![1, 16, 2048, 64]⟩

/-- The scaled logit of query row `p` against key row `j` in head `h`, the scale spelt as the
    word `0.125`. -/
def logit (q k : SQ.Idx → EReal) (h : Fin 16) (p j : Fin 2048) : EReal :=
  (∑ e : Fin 64, q (ix4 (0 : Fin 1) h p e) * k (ix4 (0 : Fin 1) h j e)) * Ideal.ofBits .f32 0x3E000000#32

/-- Attention: the `exp`-weighted average of the value rows of the same head. -/
def attn (q k v : SQ.Idx → EReal) : SQ.Idx → EReal := fun i =>
  Ideal.div (∑ j : Fin 2048, Ideal.exp (logit q k (i 1) (i 2) j) * v (ix4 (0 : Fin 1) (i 1) j (i 3)))
    (∑ j : Fin 2048, Ideal.exp (logit q k (i 1) (i 2) j))

end Cert.Attn

end
-- ==== Proof.Finite.lean ====
/-
  The precondition, read back: every entry of the three argument arrays is a real number.

  The printed predicate is the conjunction of three `all(|x| < +∞)`; at the extended reals
  `|x| = max x (−x)` is below `+∞` exactly when `x` is neither infinity.
-/
import proofs.«108297_g55705725829376_cont_9to1c4b_399_4_alg».proof.Pre_finite_inputs
import proofs.«108297_g55705725829376_cont_9to1c4b_399_4_alg».proof.Proof.Gen.Pre_finite_inputs
import Idealize.ShloMosaic.Lib.ReduceAll
import Idealize.ShloMosaic.Lib.ValueIdx
import Idealize.ShloMosaic.PureOps.Ideal.Laws

noncomputable section

namespace Cert.Attn.Finite

open Idealize.ShloMosaic Cert.Pre_finite_inputs Cert.Pre_finite_inputs.Gen

instance : Subsingleton S_.Idx := ⟨fun a b => funext fun d => d.elim0⟩

/-- An extended real whose absolute value compares below `+∞` is a real number. -/
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = (⊤ : EReal) := by simp [Ideal.ofBits, Ideal.ieee]
  rw [Ideal.cmpf_def, Ideal.hostAbsf_def, Ideal.absf_def, Ideal.ofBits_def, htop] at h
  induction x using EReal.rec with
  | bot => simp [Ideal.cmp] at h
  | coe r => exact ⟨r, rfl⟩
  | top => simp [Ideal.cmp] at h

/-- Under the precondition the three arrays hold real numbers. -/
theorem reals_of_pre (q k v : FVec Ideal S1x16x2048x64 .f32) (h : fn (F := Ideal) q k v = fun _ => 1#1) :
    (∀ i, ∃ r : ℝ, q i = (r : EReal)) ∧ (∀ i, ∃ r : ℝ, k i = (r : EReal)) ∧ (∀ i, ∃ r : ℝ, v i = (r : EReal)) := by
  have h' := congrFun h ValueIdx.ix0
  dsimp only [fn] at h'
  obtain ⟨h01, h2⟩ := IntOp.andi_eq_one.mp h'
  obtain ⟨h0, h1⟩ := IntOp.andi_eq_one.mp h01
  exact ⟨fun i => real_of_abs_lt (q i) (Host.reduce_andi_all _ _ _ _ _ h0 i),
    fun i => real_of_abs_lt (k i) (Host.reduce_andi_all _ _ _ _ _ h1 i),
    fun i => real_of_abs_lt (v i) (Host.reduce_andi_all _ _ _ _ _ h2 i)⟩

end Cert.Attn.Finite

end
-- ==== Proof.RefAttn.lean ====
/-
  The reference program computes `attn` when the entries of `q`, `k`, `v` are real numbers.

  Read stage by stage at an index (0, h, p, ·): the first contraction and the scale give the logits
  ℓ_j of row p; the maximum over j, started at −∞, of these 2048 reals is a real M; the weights
  are exp(ℓ_j − M) divided by their sum; the last contraction averages the value rows with them.
  `softmax_shift_ereal` then removes M.
-/
import proofs.«108297_g55705725829376_cont_9to1c4b_399_4_alg».proof.Proof.Gen.ReferenceIdeal.Read
import proofs.«108297_g55705725829376_cont_9to1c4b_399_4_alg».proof.Proof.Spec

noncomputable section

namespace Cert.Attn.Ref

open Cert.ReferenceIdeal Cert.ReferenceIdeal.Gen Cert.ReferenceIdeal.Read
open Idealize.ShloMosaic Idealize.ShloMosaic.TcCoe Idealize.ShloMosaic.ValueIdx Cert.Attn

/-- An array of reals read in the extended reals. -/
abbrev up (x : SQ.Idx → ℝ) : SQ.Idx → EReal := fun i => ((x i : ℝ) : EReal)

/-- The real logit of query row `p` against key row `j` in head `h`. -/
def lr (qr kr : SQ.Idx → ℝ) (h : Fin 16) (p j : Fin 2048) : ℝ :=
  (∑ e : Fin 64, qr (ix4 (0 : Fin 1) h p e) * kr (ix4 (0 : Fin 1) h j e)) * (1 / 8)

/-- On real arrays the logit is that real. -/
theorem logit_up (qr kr : SQ.Idx → ℝ) (h : Fin 16) (p j : Fin 2048) :
    logit (up qr) (up kr) h p j = ((lr qr kr h p j : ℝ) : EReal) := by
  unfold logit lr
  rw [ofBits_eighth]
  simp only [← EReal.coe_mul, coe_sum]

/-! ## The index maps of the two contractions and of the row reductions, in coordinates -/

theorem lidx2 (h : Fin 16) (p j : Fin 2048) (e : Fin 64) :
    lidx_main_v2 (ix4 (0 : Fin 1) h p j) e = ix4 (0 : Fin 1) h p e := by
  funext d; apply Fin.ext
  match d with
  | ⟨0, _⟩ => rfl
  | ⟨1, _⟩ => rfl
  | ⟨2, _⟩ => rfl
  | ⟨3, _⟩ => rfl

theorem ridx2 (h : Fin 16) (p j : Fin 2048) (e : Fin 64) :
    ridx_main_v2 (ix4 (0 : Fin 1) h p j) e = ix4 (0 : Fin 1) h j e := by
  funext d; apply Fin.ext
  match d with
  | ⟨0, _⟩ => rfl
  | ⟨1, _⟩ => rfl
  | ⟨2, _⟩ => rfl
  | ⟨3, _⟩ => rfl

theorem lidx14 (h : Fin 16) (p : Fin 2048) (d : Fin 64) (j : Fin 2048) :
    lidx_main_v14 (ix4 (0 : Fin 1) h p d) j = ix4 (0 : Fin 1) h p j := by
  funext c; apply Fin.ext
  match c with
  | ⟨0, _⟩ => rfl
  | ⟨1, _⟩ => rfl
  | ⟨2, _⟩ => rfl
  | ⟨3, _⟩ => rfl

theorem ridx14 (h : Fin 16) (p : Fin 2048) (d : Fin 64) (j : Fin 2048) :
    ridx_main_v14 (ix4 (0 : Fin 1) h p d) j = ix4 (0 : Fin 1) h j d := by
  funext c; apply Fin.ext
  match c with
  | ⟨0, _⟩ => rfl
  | ⟨1, _⟩ => rfl
  | ⟨2, _⟩ => rfl
  | ⟨3, _⟩ => rfl

/-- A row's statistic broadcast back along the row is read at the row. -/
theorem idx67 (h : Fin 16) (p j : Fin 2048) :
    idx_main_v6 (idx_main_v7 (ix4 (0 : Fin 1) h p j)) = ix3 (0 : Fin 1) h p := by
  funext c; apply Fin.ext
  match c with
  | ⟨0, _⟩ => rfl
  | ⟨1, _⟩ => rfl
  | ⟨2, _⟩ => rfl

theorem idx1112 (h : Fin 16) (p j : Fin 2048) :
    idx_main_v11 (idx_main_v12 (ix4 (0 : Fin 1) h p j)) = ix3 (0 : Fin 1) h p := by
  funext c; apply Fin.ext
  match c with
  | ⟨0, _⟩ => rfl
  | ⟨1, _⟩ => rfl
  | ⟨2, _⟩ => rfl

theorem idx10 (h : Fin 16) (p j : Fin 2048) :
    idx_main_v10 (ix3 (0 : Fin 1) h p) j = ix4 (0 : Fin 1) h p j := by
  funext c; apply Fin.ext
  match c with
  | ⟨0, _⟩ => rfl
  | ⟨1, _⟩ => rfl
  | ⟨2, _⟩ => rfl
  | ⟨3, _⟩ => rfl

/-! ## The stages -/

/-- The scaled product of the first contraction, at (0, h, p, j), is the logit. -/
theorem v4_at (qr kr : SQ.Idx → ℝ) (h : Fin 16) (p j : Fin 2048) :
    val_main_v4 (F := Ideal) (up qr) (up kr) (ix4 (0 : Fin 1) h p j) = ((lr qr kr h p j : ℝ) : EReal) := by
  rw [val_main_v4_apply, val_main_v2_apply, val_main_v3_apply, val_main_v1_apply, val_main_cst_0_apply,
    val_main_v0_apply, val_main_cst_apply]
  simp only [Ideal.mulf_def, Ideal.hostDivf_def, Ideal.hostUnary_sqrt_def, Ideal.ofBits_def]
  rw [scale_ref]
  simp only [lidx2, ridx2]
  unfold lr
  simp only [← EReal.coe_mul, coe_sum]

/-- The row maximum of the logits is a real number. -/
theorem v5_at (qr kr : SQ.Idx → ℝ) (h : Fin 16) (p : Fin 2048) :
    ∃ M : ℝ, val_main_v5 (F := Ideal) (up qr) (up kr) (ix3 (0 : Fin 1) h p) = (M : EReal) := by
  have hR : S1x16x2048x2048.Reduces [3] S1x16x2048 := by decide
  unfold val_main_v5
  rw [Host.reduce_eq_fold_single FloatOps.maximumf _ _ reducesTo_S1x16x2048x2048_S1x16x2048_d3 hR h_S_]
  have hf : (val_main_v4 (F := Ideal) (up qr) (up kr) ∘ hR.lift (ix3 (0 : Fin 1) h p))
      = fun k : Fin 2048 => ((lr qr kr h p k : ℝ) : EReal) := funext fun k => by
    show val_main_v4 (F := Ideal) (up qr) (up kr) (hR.lift (ix3 (0 : Fin 1) h p) k) = _
    rw [show hR.lift (ix3 (0 : Fin 1) h p) k = ix4 (0 : Fin 1) h p k from funext fun c => Fin.ext (by
      match c with
      | ⟨0, _⟩ => rfl
      | ⟨1, _⟩ => rfl
      | ⟨2, _⟩ => rfl
      | ⟨3, _⟩ => rfl)]
    exact v4_at qr kr h p k
  rw [hf, val_main_cst_1_apply]
  show ∃ M : ℝ, Finset.fold max (Ideal.ofBits .f32 0xFF800000#32) (fun k : Fin 2048 => ((lr qr kr h p k : ℝ) : EReal)) Finset.univ = (M : EReal)
  rw [ofBits_neg_inf]
  exact fold_max_coe Finset.univ ⟨(0 : Fin 2048), Finset.mem_univ _⟩ _

/-- The weight before normalisation: `exp` of the logit less the row maximum. -/
theorem v9_at (qr kr : SQ.Idx → ℝ) (h : Fin 16) (p j : Fin 2048) :
    val_main_v9 (F := Ideal) (up qr) (up kr) (ix4 (0 : Fin 1) h p j)
      = Ideal.exp (((lr qr kr h p j : ℝ) : EReal) - val_main_v5 (F := Ideal) (up qr) (up kr) (ix3 (0 : Fin 1) h p)) := by
  rw [val_main_v9_apply, val_main_v8_apply, v4_at, val_main_v7_apply, val_main_v6_apply, idx67]
  simp only [Ideal.hostUnary_exp_def, Ideal.subf_def]

/-- The normaliser: zero plus the sum of the row's weights. -/
theorem v12_at (qr kr : SQ.Idx → ℝ) (h : Fin 16) (p j : Fin 2048) :
    val_main_v12 (F := Ideal) (up qr) (up kr) (ix4 (0 : Fin 1) h p j)
      = (0 : EReal) + ∑ i : Fin 2048, Ideal.exp (((lr qr kr h p i : ℝ) : EReal)
          - val_main_v5 (F := Ideal) (up qr) (up kr) (ix3 (0 : Fin 1) h p)) := by
  rw [val_main_v12_apply, val_main_v11_apply, idx1112, val_main_v10_apply, val_main_cst_2_apply]
  simp only [idx10, v9_at, Ideal.ofBits_def, Ideal.ofBits_zero_f32]

/-- THE REFERENCE IS `attn` on arrays of real numbers. -/
theorem ref_eq_attn (qr kr vr : SQ.Idx → ℝ) :
    val_main_v14 (F := Ideal) (up qr) (up kr) (up vr) = attn (up qr) (up kr) (up vr) := by
  funext i
  obtain ⟨a, h, p, d, rfl⟩ : ∃ (a : Fin 1) (h : Fin 16) (p : Fin 2048) (d : Fin 64), i = ix4 a h p d :=
    ⟨i 0, i 1, i 2, i 3, eq_ix4 i⟩
  obtain rfl : a = 0 := Subsingleton.elim _ _
  obtain ⟨M, hM⟩ := v5_at qr kr h p
  rw [val_main_v14_apply]
  simp only [lidx14, ridx14, val_main_v13_apply, v9_at, v12_at, hM, Ideal.hostDivf_def]
  refine (softmax_shift_ereal (fun j => lr qr kr h p j) (fun j => vr (ix4 (0 : Fin 1) h j d)) M).trans ?_
  show _ = Ideal.div (∑ j : Fin 2048, Ideal.exp (logit (up qr) (up kr) h p j) * up vr (ix4 (0 : Fin 1) h j d))
    (∑ j : Fin 2048, Ideal.exp (logit (up qr) (up kr) h p j))
  simp only [logit_up]

/-- The same for extended-real arrays every entry of which is a real number. -/
theorem ref_eq_attn_of_real (q k v : SQ.Idx → EReal) (hq : ∀ i, ∃ r : ℝ, q i = (r : EReal))
    (hk : ∀ i, ∃ r : ℝ, k i = (r : EReal)) (hv : ∀ i, ∃ r : ℝ, v i = (r : EReal)) :
    val_main_v14 (F := Ideal) q k v = attn q k v := by
  choose qr hqr using hq
  choose kr hkr using hk
  choose vr hvr using hv
  obtain rfl : q = up qr := funext hqr
  obtain rfl : k = up kr := funext hkr
  obtain rfl : v = up vr := funext hvr
  exact ref_eq_attn qr kr vr

end Cert.Attn.Ref

end
-- ==== Proof.KerPay.lean ====
/-
  What the kernel body stores, read at an index of the output block.

  The body holds a block of 256 query rows and the whole key and value planes of one head. At row p
  and column d of the block it stores

      ( Σ_j exp(ℓ_j) · v[j, d] ) / ( Σ_j exp(ℓ_j) ),     ℓ_j = ( Σ_e q[p, e] · k[j, e] ) · 0.125,

  the first matrix product contracting the feature axis of both operands (rows of q against rows of
  k), the second contracting the key axis; the row sums of the weights are kept as a column and
  broadcast along the row before the division.
-/
import proofs.«108297_g55705725829376_cont_9to1c4b_399_4_alg».proof.Proof.Gen.KernelIdeal.Skeleton
import proofs.«108297_g55705725829376_cont_9to1c4b_399_4_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Attn.Ker

open Cert.KernelIdeal Cert.KernelIdeal.Gen
open Idealize.ShloMosaic Idealize.ShloMosaic.TcCoe Idealize.ShloMosaic.ValueIdx Cert.Attn

/-! ## The first product: rows of the query block against rows of the key plane -/

theorem lhs_qk_0 (i : S256x2048.Idx) (c : dot_S256x64_S2048x64_S256x2048_1_1_0_0_n_n.contr.Idx) :
    (dot_S256x64_S2048x64_S256x2048_1_1_0_0_n_n.lhsIdx i c 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem lhs_qk_1 (i : S256x2048.Idx) (c : dot_S256x64_S2048x64_S256x2048_1_1_0_0_n_n.contr.Idx) :
    (dot_S256x64_S2048x64_S256x2048_1_1_0_0_n_n.lhsIdx i c 1).val = (c ⟨0, by decide⟩).val :=
  dot_S256x64_S2048x64_S256x2048_1_1_0_0_n_n.lhsIdx_val_of_single rfl i c
theorem rhs_qk_0 (i : S256x2048.Idx) (c : dot_S256x64_S2048x64_S256x2048_1_1_0_0_n_n.contr.Idx) :
    (dot_S256x64_S2048x64_S256x2048_1_1_0_0_n_n.rhsIdx i c 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem rhs_qk_1 (i : S256x2048.Idx) (c : dot_S256x64_S2048x64_S256x2048_1_1_0_0_n_n.contr.Idx) :
    (dot_S256x64_S2048x64_S256x2048_1_1_0_0_n_n.rhsIdx i c 1).val = (c ⟨0, by decide⟩).val :=
  dot_S256x64_S2048x64_S256x2048_1_1_0_0_n_n.rhsIdx_val_of_single rfl i c

/-- Entry (p, j) of the first product is the inner product of query row p and key row j. -/
theorem qk_at (a : FVec Ideal S256x64 .bf16) (b : FVec Ideal S2048x64 .bf16) (p : Fin 256) (j : Fin 2048) :
    matmul dot_S256x64_S2048x64_S256x2048_1_1_0_0_n_n none a b (constant (F := Ideal) S256x2048 .f32 0x00000000#32) (ix2 p j)
      = ∑ e : Fin 64, a (ix2 p e) * b (ix2 j e) := by
  simp only [matmul]
  rw [Ideal.matmul_constant_zero_apply, ← Equiv.sum_comp (ValueIdx.contrEquiv1 dot_S256x64_S2048x64_S256x2048_1_1_0_0_n_n 64 rfl rfl).symm]
  refine Finset.sum_congr rfl fun e _ => ?_
  have hk := ValueIdx.contrEquiv1_symm_val dot_S256x64_S2048x64_S256x2048_1_1_0_0_n_n 64 rfl rfl e
  have el : dot_S256x64_S2048x64_S256x2048_1_1_0_0_n_n.lhsIdx (ix2 p j) ((ValueIdx.contrEquiv1 dot_S256x64_S2048x64_S256x2048_1_1_0_0_n_n 64 rfl rfl).symm e) = ix2 p e := funext fun c => Fin.ext (by
    match c with
    | ⟨0, _⟩ => exact lhs_qk_0 _ _
    | ⟨1, _⟩ => exact (lhs_qk_1 _ _).trans hk)
  have er : dot_S256x64_S2048x64_S256x2048_1_1_0_0_n_n.rhsIdx (ix2 p j) ((ValueIdx.contrEquiv1 dot_S256x64_S2048x64_S256x2048_1_1_0_0_n_n 64 rfl rfl).symm e) = ix2 j e := funext fun c => Fin.ext (by
    match c with
    | ⟨0, _⟩ => exact rhs_qk_0 _ _
    | ⟨1, _⟩ => exact (rhs_qk_1 _ _).trans hk)
  rw [el, er]

/-! ## The second product: the weights of a row against the columns of the value plane -/

theorem lhs_pv_0 (i : S256x64.Idx) (c : dot_S256x2048_S2048x64_S256x64_1_0_0_1_n_n.contr.Idx) :
    (dot_S256x2048_S2048x64_S256x64_1_0_0_1_n_n.lhsIdx i c 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem lhs_pv_1 (i : S256x64.Idx) (c : dot_S256x2048_S2048x64_S256x64_1_0_0_1_n_n.contr.Idx) :
    (dot_S256x2048_S2048x64_S256x64_1_0_0_1_n_n.lhsIdx i c 1).val = (c ⟨0, by decide⟩).val :=
  dot_S256x2048_S2048x64_S256x64_1_0_0_1_n_n.lhsIdx_val_of_single rfl i c
theorem rhs_pv_0 (i : S256x64.Idx) (c : dot_S256x2048_S2048x64_S256x64_1_0_0_1_n_n.contr.Idx) :
    (dot_S256x2048_S2048x64_S256x64_1_0_0_1_n_n.rhsIdx i c 0).val = (c ⟨0, by decide⟩).val :=
  dot_S256x2048_S2048x64_S256x64_1_0_0_1_n_n.rhsIdx_val_of_single rfl i c
theorem rhs_pv_1 (i : S256x64.Idx) (c : dot_S256x2048_S2048x64_S256x64_1_0_0_1_n_n.contr.Idx) :
    (dot_S256x2048_S2048x64_S256x64_1_0_0_1_n_n.rhsIdx i c 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- Entry (p, d) of the second product sums weight (p, j) times value (j, d) over the keys j. -/
theorem pv_at (a : FVec Ideal S256x2048 .f32) (b : FVec Ideal S2048x64 .f32) (p : Fin 256) (d : Fin 64) :
    matmul dot_S256x2048_S2048x64_S256x64_1_0_0_1_n_n none a b (constant (F := Ideal) S256x64 .f32 0x00000000#32) (ix2 p d)
      = ∑ j : Fin 2048, a (ix2 p j) * b (ix2 j d) := by
  simp only [matmul]
  rw [Ideal.matmul_constant_zero_apply, ← Equiv.sum_comp (ValueIdx.contrEquiv1 dot_S256x2048_S2048x64_S256x64_1_0_0_1_n_n 2048 rfl rfl).symm]
  refine Finset.sum_congr rfl fun j _ => ?_
  have hk := ValueIdx.contrEquiv1_symm_val dot_S256x2048_S2048x64_S256x64_1_0_0_1_n_n 2048 rfl rfl j
  have el : dot_S256x2048_S2048x64_S256x64_1_0_0_1_n_n.lhsIdx (ix2 p d) ((ValueIdx.contrEquiv1 dot_S256x2048_S2048x64_S256x64_1_0_0_1_n_n 2048 rfl rfl).symm j) = ix2 p j := funext fun c => Fin.ext (by
    match c with
    | ⟨0, _⟩ => exact lhs_pv_0 _ _
    | ⟨1, _⟩ => exact (lhs_pv_1 _ _).trans hk)
  have er : dot_S256x2048_S2048x64_S256x64_1_0_0_1_n_n.rhsIdx (ix2 p d) ((ValueIdx.contrEquiv1 dot_S256x2048_S2048x64_S256x64_1_0_0_1_n_n 2048 rfl rfl).symm j) = ix2 j d := funext fun c => Fin.ext (by
    match c with
    | ⟨0, _⟩ => exact (rhs_pv_0 _ _).trans hk
    | ⟨1, _⟩ => exact rhs_pv_1 _ _)
  rw [el, er]

/-! ## The row sums, kept as a column and broadcast along the row -/

/-- The sum over the keys of row p of a 256 × 2048 array, reduced, recast to a column and
    broadcast to 256 × 64, read at (p, d). -/
theorem rowsum_at (a : FVec Ideal S256x2048 .f32) (hr : S256x2048.Reduces [1] S256)
    (hacc : (0x00000000#32 : BitVec 32) = 0x00000000#32)
    (hc : S256.ShapeCasts S256x1) (hb : S256x1.Broadcasts S256x64) (p : Fin 256) (d : Fin 64) :
    broadcastTo S256x64 (shapeCast S256x1 (multiReduction .add [1] S256 a 0x00000000#32 hr (.inl rfl) hacc) hc) hb (ix2 p d)
      = ∑ j : Fin 2048, a (ix2 p j) := by
  refine (broadcastTo_apply _ hb (ix2 p d) (ix2 p (0 : Fin 1)) (fun ax => by
    match ax with
    | ⟨0, _⟩ => show p.val = if (256 : Nat) = 1 then 0 else p.val; rw [if_neg (by decide)]
    | ⟨1, _⟩ => show 0 = if (1 : Nat) = 1 then 0 else d.val; rw [if_pos rfl])).trans ?_
  refine (shapeCast_apply _ hc (ix2 p (0 : Fin 1)) (ix1 p) (by
    rw [Shape.rowMajor_val_one, Shape.rowMajor_val_two]
    show p.val = p.val * 1 + 0
    omega)).trans ?_
  refine (Ideal.multiReduction_add_single a 0x00000000#32 hr (.inl rfl) hacc (ix1 p)).trans ?_
  refine Finset.sum_congr rfl fun j _ => congrArg a (funext fun c => Fin.ext (by
    match c with
    | ⟨0, _⟩ => rfl
    | ⟨1, _⟩ => rfl))

/-! ## The body's stored value -/

/-- The block's weights: `exp` of the scaled inner products, one row per query row, one column per key. -/
def weights (x0 : Vec Ideal S1x256x64 .f32) (x1 : Vec Ideal S1x2048x64 .f32) : FVec Ideal S256x2048 .f32 :=
  exp (mulf (matmul dot_S256x64_S2048x64_S256x2048_1_1_0_0_n_n none
      (truncf .bf16 (shapeCast S256x64 x0 shapeCasts_S1x256x64_S256x64) bitsLt_bf16_f32)
      (truncf .bf16 (shapeCast S2048x64 x1 shapeCasts_S1x2048x64_S2048x64) bitsLt_bf16_f32)
      (constant (F := Ideal) S256x2048 .f32 0x00000000#32))
    (broadcast S256x2048 (Scalar.ofBits (F := Ideal) .f32 0x3E000000#32)))

/-- The weight of key j for query row p: the narrowing to bf16 changes nothing at the exact values,
    and dropping the blocks' leading unit axis only renames the index. -/
theorem weights_at (x0 : Vec Ideal S1x256x64 .f32) (x1 : Vec Ideal S1x2048x64 .f32) (p : Fin 256) (j : Fin 2048) :
    weights x0 x1 (ix2 p j)
      = Ideal.exp ((∑ e : Fin 64, x0 (ix3 (0 : Fin 1) p e) * x1 (ix3 (0 : Fin 1) j e)) * Ideal.ofBits .f32 0x3E000000#32) := by
  show Ideal.exp (matmul dot_S256x64_S2048x64_S256x2048_1_1_0_0_n_n none
      (truncf .bf16 (shapeCast S256x64 x0 shapeCasts_S1x256x64_S256x64) bitsLt_bf16_f32)
      (truncf .bf16 (shapeCast S2048x64 x1 shapeCasts_S1x2048x64_S2048x64) bitsLt_bf16_f32)
      (constant (F := Ideal) S256x2048 .f32 0x00000000#32) (ix2 p j) * Ideal.ofBits .f32 0x3E000000#32) = _
  rw [qk_at]
  refine congrArg (fun s => Ideal.exp (s * Ideal.ofBits .f32 0x3E000000#32)) (Finset.sum_congr rfl fun e _ => ?_)
  exact congrArg₂ (· * ·) (shapeCast_1ab_ab_apply x0 _ p e) (shapeCast_1ab_ab_apply x1 _ j e)

/-- The stored block is the quotient of the second product by the broadcast row sums, with a
    leading unit axis put back. -/
theorem pay_eq (x0 : Vec Ideal S1x256x64 .f32) (x1 x2 : Vec Ideal S1x2048x64 .f32) :
    k0_pay1 (F := Ideal) x0 x1 x2
      = shapeCast S1x256x64 (divf
          (matmul dot_S256x2048_S2048x64_S256x64_1_0_0_1_n_n none (weights x0 x1)
            (shapeCast S2048x64 x2 shapeCasts_S1x2048x64_S2048x64 : FVec Ideal S2048x64 .f32) (constant (F := Ideal) S256x64 .f32 0x00000000#32))
          (broadcastTo S256x64 (shapeCast S256x1
            (multiReduction .add [1] S256 (weights x0 x1) 0x00000000#32 reduces_S256x2048_S256 (.inl rfl) rfl)
            shapeCasts_S256_S256x1) broadcasts_S256x1_S256x64)) shapeCasts_S256x64_S1x256x64 := rfl

/-- THE STORED VALUE at row p, column d of the block. -/
theorem pay_at (x0 : Vec Ideal S1x256x64 .f32) (x1 x2 : Vec Ideal S1x2048x64 .f32) (u : Fin 1) (p : Fin 256) (d : Fin 64) :
    k0_pay1 (F := Ideal) x0 x1 x2 (ix3 u p d)
      = Ideal.div
          (∑ j : Fin 2048, Ideal.exp ((∑ e : Fin 64, x0 (ix3 (0 : Fin 1) p e) * x1 (ix3 (0 : Fin 1) j e))
              * Ideal.ofBits .f32 0x3E000000#32) * x2 (ix3 (0 : Fin 1) j d))
          (∑ j : Fin 2048, Ideal.exp ((∑ e : Fin 64, x0 (ix3 (0 : Fin 1) p e) * x1 (ix3 (0 : Fin 1) j e))
              * Ideal.ofBits .f32 0x3E000000#32)) := by
  rw [pay_eq]
  refine (shapeCast_ab_1ab_apply _ _ u p d).trans ?_
  refine (divf_apply _ _ _).trans ?_
  refine congrArg₂ Ideal.div ?_ ?_
  · refine (pv_at _ _ p d).trans (Finset.sum_congr rfl fun j _ => ?_)
    exact congrArg₂ (· * ·) (weights_at x0 x1 p j) (shapeCast_1ab_ab_apply x2 _ j d)
  · refine (rowsum_at _ _ rfl _ _ p d).trans (Finset.sum_congr rfl fun j _ => ?_)
    exact weights_at x0 x1 p j

end Cert.Attn.Ker

end
-- ==== Proof.KerArr.lean ====
/-
  The kernel program's result array, as one function of the three argument arrays.

  The program recasts each argument [1, 16, 2048, 64] to head-major [16, 2048, 64], runs the body
  over a 16 × 8 grid and recasts the result back. Point (h, b) of the grid holds rows
  256·b … 256·b + 255 of head h of q and of the output, and the whole planes of head h of k and v;
  so what it writes back is the block of `attn3`, attention on the head-major arrays, that its
  rectangle names, the 128 blocks tile the output, and the two recasts only rename (0, h, p, d) as
  (h, p, d).
-/
import proofs.«108297_g55705725829376_cont_9to1c4b_399_4_alg».proof.Proof.Gen.KernelIdeal.Frame
import proofs.«108297_g55705725829376_cont_9to1c4b_399_4_alg».proof.Proof.KerPay
import proofs.«108297_g55705725829376_cont_9to1c4b_399_4_alg».proof.Proof.Spec
import Idealize.ShloMosaic.Lib.Pipeline.Value
import Idealize.ShloMosaic.Lib.ValueLayout
import Idealize.ShloMosaic.Lib.StableHlo.Run

noncomputable section

namespace Cert.Attn.Arr

open Cert.KernelIdeal Cert.KernelIdeal.Gen
open Idealize.ShloMosaic Idealize.ShloMosaic.TcCoe Idealize.ShloMosaic.ValueIdx Idealize.SL.Sem Cert.Attn
open Idealize.ShloMosaic.Pipeline (Dat)

variable (m : (ℓ : Loc nD τ sig) → Buf (Elt Ideal) ℓ) (ρ : Dev nD → PrngReg)

/-- Attention on head-major arrays [16, 2048, 64]: entry (h, p, d) averages the value rows of head h
    with the `exp` weights of query row p. -/
def attn3 (A0 A1 A2 : S16x2048x64.Idx → EReal) : S16x2048x64.Idx → EReal := fun i =>
  Ideal.div
    (∑ j : Fin 2048, Ideal.exp ((∑ e : Fin 64, A0 (ix3 (i 0) (i 1) e) * A1 (ix3 (i 0) j e))
        * Ideal.ofBits .f32 0x3E000000#32) * A2 (ix3 (i 0) j (i 2)))
    (∑ j : Fin 2048, Ideal.exp ((∑ e : Fin 64, A0 (ix3 (i 0) (i 1) e) * A1 (ix3 (i 0) j e))
        * Ideal.ofBits .f32 0x3E000000#32))

/-- A block's stored value at `y` is `attn3` at `i` once the three loaded blocks are the arrays read
    at head `i 0`: the query block along row `i 1`, the key and value planes whole. -/
theorem block_eq (A0 A1 A2 : S16x2048x64.Idx → EReal) (x0 : Vec Ideal S1x256x64 .f32) (x1 x2 : Vec Ideal S1x2048x64 .f32)
    (i : S16x2048x64.Idx) (y : S1x256x64.Idx)
    (h0 : ∀ e : Fin 64, x0 (ix3 (0 : Fin 1) (y 1) e) = A0 (ix3 (i 0) (i 1) e))
    (h1 : ∀ (j : Fin 2048) (e : Fin 64), x1 (ix3 (0 : Fin 1) j e) = A1 (ix3 (i 0) j e))
    (h2 : ∀ j : Fin 2048, x2 (ix3 (0 : Fin 1) j (y 2)) = A2 (ix3 (i 0) j (i 2))) :
    k0_pay1 (F := Ideal) x0 x1 x2 y = attn3 A0 A1 A2 i := by
  obtain ⟨u, p, d, rfl⟩ : ∃ (u : Fin 1) (p : Fin 256) (d : Fin 64), y = ix3 u p d := ⟨y 0, y 1, y 2, eq_ix3 y⟩
  rw [Ker.pay_at]
  unfold attn3
  have h0' : ∀ e : Fin 64, x0 (ix3 (0 : Fin 1) p e) = A0 (ix3 (i 0) (i 1) e) := h0
  have h2' : ∀ j : Fin 2048, x2 (ix3 (0 : Fin 1) j d) = A2 (ix3 (i 0) j (i 2)) := h2
  simp only [h0', h1, h2']

theorem hz : (![0, 0, 0] : Fin 3 → Nat) = fun _ => 0 := funext fun a => by fin_cases a <;> rfl

/-- The printed index maps over the 128 points: point t is head t / 8, row block t % 8; the key and
    value windows stay at row block 0 of that head. -/
theorem idx_facts : ∀ t : Fin cfg0.N,
    win0_3.index t (0 : Fin 3) = t.val / 8 ∧ win0_3.index t (1 : Fin 3) = t.val % 8 ∧ win0_3.index t (2 : Fin 3) = 0
    ∧ win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0 :=
  (by decide +kernel : ∀ t : Fin grid0.N, _)

/-- WHAT POINT `t` WRITES BACK is block `t` of `attn3` of the head-major arrays as the region finds them. -/
theorem flushed_eq (c : Dev nD) (t : Fin cfg0.N) :
    (dats m 0 c).flushed 3 t = ((cfg0.win 3).blk t).view.read (Elt Ideal)
      (attn3 (V m c main_call0_v0) (V m c main_call0_v1) (V m c main_call0_v2)) := by
  show (cfg0.win 3).cut (grid0.coords t) ((dats m 0 c).after 3 t) = _
  rw [after0_3]
  unfold out0_3
  rw [View.canon_unit_zero hz]
  simp only [View.ld_unit_zero (S := S1x256x64) hz, View.ld_unit_zero (S := S1x2048x64) hz]
  obtain ⟨a0, a1, a2, b0, b1, b2, c0, c1, c2, d0, d1, d2⟩ := idx_facts t
  funext y
  show k0_pay1 (F := Ideal) (iblk m c 0 t) (iblk m c 1 t) (iblk m c 2 t) y
      = attn3 (V m c main_call0_v0) (V m c main_call0_v1) (V m c main_call0_v2) (((cfg0.win 3).blk t).view.emb y)
  have hy0 : (y 0).val < 1 := (y 0).isLt
  refine block_eq (V m c main_call0_v0) (V m c main_call0_v1) (V m c main_call0_v2) (iblk m c 0 t) (iblk m c 1 t) (iblk m c 2 t)
    (((cfg0.win 3).blk t).view.emb y) y ?_ ?_ ?_
  · intro e
    show V m c main_call0_v0 (((cfg0.win 0).blk t).view.emb (ix3 (0 : Fin 1) (y 1) e)) = _
    refine congrArg (V m c main_call0_v0) (funext fun a => Fin.ext ?_)
    match a with
    | ⟨0, _⟩ => show win0_0.index t (0 : Fin 3) * 1 + 1 * 0 = win0_3.index t (0 : Fin 3) * 1 + 1 * (y 0).val; omega
    | ⟨1, _⟩ => show win0_0.index t (1 : Fin 3) * 256 + 1 * (y 1).val = win0_3.index t (1 : Fin 3) * 256 + 1 * (y 1).val; omega
    | ⟨2, _⟩ => show win0_0.index t (2 : Fin 3) * 64 + 1 * e.val = e.val; omega
  · intro j e
    show V m c main_call0_v1 (((cfg0.win 1).blk t).view.emb (ix3 (0 : Fin 1) j e)) = _
    refine congrArg (V m c main_call0_v1) (funext fun a => Fin.ext ?_)
    match a with
    | ⟨0, _⟩ => show win0_1.index t (0 : Fin 3) * 1 + 1 * 0 = win0_3.index t (0 : Fin 3) * 1 + 1 * (y 0).val; omega
    | ⟨1, _⟩ => show win0_1.index t (1 : Fin 3) * 2048 + 1 * j.val = j.val; omega
    | ⟨2, _⟩ => show win0_1.index t (2 : Fin 3) * 64 + 1 * e.val = e.val; omega
  · intro j
    show V m c main_call0_v2 (((cfg0.win 2).blk t).view.emb (ix3 (0 : Fin 1) j (y 2))) = _
    refine congrArg (V m c main_call0_v2) (funext fun a => Fin.ext ?_)
    match a with
    | ⟨0, _⟩ => show win0_2.index t (0 : Fin 3) * 1 + 1 * 0 = win0_3.index t (0 : Fin 3) * 1 + 1 * (y 0).val; omega
    | ⟨1, _⟩ => show win0_2.index t (1 : Fin 3) * 2048 + 1 * j.val = j.val; omega
    | ⟨2, _⟩ => show win0_2.index t (2 : Fin 3) * 64 + 1 * (y 2).val = win0_3.index t (2 : Fin 3) * 64 + 1 * (y 2).val; omega

/-- An index of the output array is in point `t`'s block iff each coordinate is in the block's range. -/
theorem mem_blk (t : Fin cfg0.N) (i : S16x2048x64.Idx) :
    i ∈ ((cfg0.win 3).blk t).view.set ↔ ∀ a : Fin 3, win0_3.index t a * S1x256x64.size a ≤ (i a).val
      ∧ (i a).val < win0_3.index t a * S1x256x64.size a + S1x256x64.size a := by
  show i ∈ ((View.whole main_call0_v3).slice (win0_3.rect t)).set ↔ _
  rw [View.set_slice_whole, Rect.mem_set_unit]
  exact Iff.rfl

/-- Every index (h, r, d) of the output lies in the block of point 8·h + r / 256. -/
theorem cover (i : S16x2048x64.Idx) :
    ∃ t : Fin cfg0.N, (cfg0.win 3).flush t = true ∧ i ∈ ((cfg0.win 3).blk t).view.set := by
  have h0 : (i 0).val < 16 := (i 0).isLt
  have h1 : (i 1).val < 2048 := (i 1).isLt
  have h2 : (i 2).val < 64 := (i 2).isLt
  have hN : (i 0).val * 8 + (i 1).val / 256 < cfg0.N := by rw [show cfg0.N = 128 from N_0]; omega
  refine ⟨⟨(i 0).val * 8 + (i 1).val / 256, hN⟩, flush0_3 _, ?_⟩
  rw [mem_blk]
  obtain ⟨a0, a1, a2, -⟩ := idx_facts ⟨(i 0).val * 8 + (i 1).val / 256, hN⟩
  intro a
  match a with
  | ⟨0, _⟩ =>
    show win0_3.index _ (0 : Fin 3) * 1 ≤ (i 0).val ∧ (i 0).val < win0_3.index _ (0 : Fin 3) * 1 + 1
    rw [a0]; show ((i 0).val * 8 + (i 1).val / 256) / 8 * 1 ≤ _ ∧ _ < ((i 0).val * 8 + (i 1).val / 256) / 8 * 1 + 1; omega
  | ⟨1, _⟩ =>
    show win0_3.index _ (1 : Fin 3) * 256 ≤ (i 1).val ∧ (i 1).val < win0_3.index _ (1 : Fin 3) * 256 + 256
    rw [a1]; show ((i 0).val * 8 + (i 1).val / 256) % 8 * 256 ≤ _ ∧ _ < ((i 0).val * 8 + (i 1).val / 256) % 8 * 256 + 256; omega
  | ⟨2, _⟩ =>
    show win0_3.index _ (2 : Fin 3) * 64 ≤ (i 2).val ∧ (i 2).val < win0_3.index _ (2 : Fin 3) * 64 + 64
    rw [a2]; omega

/-- THE OUTPUT ARRAY after the region is `attn3` of the head-major arrays. -/
theorem final3 (c : Dev nD) :
    (dats m 0 c).arrAt 3 cfg0.N = attn3 (V m c main_call0_v0) (V m c main_call0_v1) (V m c main_call0_v2) :=
  (dats m 0 c).arrAt_eq_of_cover 3 _ (fun t _ => flushed_eq m c t) cover

/-! ## The recasts before and after the region -/

/-- The region finds the query array recast head-major. -/
theorem V_q (c : Dev nD) : (V m c main_call0_v0 : S16x2048x64.Idx → EReal)
    = shapeCast S16x2048x64 (m ((c : Thread nD τ).loc main_arg0)) shapeCasts_S1x16x2048x64_S16x2048x64 := by
  show StableHlo.after hostOps0 (fun b => m (c, b)) (Proc.devRef .tc main_call0_v0) = _
  after_results
  rfl

/-- The region finds the key array recast head-major. -/
theorem V_k (c : Dev nD) : (V m c main_call0_v1 : S16x2048x64.Idx → EReal)
    = shapeCast S16x2048x64 (m ((c : Thread nD τ).loc main_arg1)) shapeCasts_S1x16x2048x64_S16x2048x64 := by
  show StableHlo.after hostOps0 (fun b => m (c, b)) (Proc.devRef .tc main_call0_v1) = _
  after_results
  rfl

/-- The region finds the value array recast head-major. -/
theorem V_v (c : Dev nD) : (V m c main_call0_v2 : S16x2048x64.Idx → EReal)
    = shapeCast S16x2048x64 (m ((c : Thread nD τ).loc main_arg2)) shapeCasts_S1x16x2048x64_S16x2048x64 := by
  show StableHlo.after hostOps0 (fun b => m (c, b)) (Proc.devRef .tc main_call0_v2) = _
  after_results
  rfl

/-- The program's result is the region's output array recast to [1, 16, 2048, 64]. -/
theorem tail_eq (c : Dev nD) :
    (Pipeline.afterTail₀ cfgs (dats m) 0 (V0 m) [hostOps1] c main_v0 : S1x16x2048x64.Idx → EReal)
      = shapeCast S1x16x2048x64 ((dats m 0 c).arrAt 3 cfg0.N) shapeCasts_S16x2048x64_S1x16x2048x64 := by
  unfold Pipeline.afterTail₀
  show StableHlo.after hostOps1 _ (Proc.devRef .tc main_v0) = _
  after_results
  exact congrArg (fun A : S16x2048x64.Idx → EReal => shapeCast S1x16x2048x64 A shapeCasts_S16x2048x64_S1x16x2048x64)
    (Pipeline.withArrays_arr spec0 launch0.win.arr_inj c (V0 m c) (fun w => (dats m 0 c).arrAt w cfg0.N) 3)

/-- Recast head-major, attend, recast back: attention on the arrays as given, since both recasts
    only drop or restore the leading unit axis. -/
theorem recast_attn (q k v : SQ.Idx → EReal) :
    shapeCast S1x16x2048x64
        (attn3 (shapeCast S16x2048x64 q shapeCasts_S1x16x2048x64_S16x2048x64)
          (shapeCast S16x2048x64 k shapeCasts_S1x16x2048x64_S16x2048x64)
          (shapeCast S16x2048x64 v shapeCasts_S1x16x2048x64_S16x2048x64))
        shapeCasts_S16x2048x64_S1x16x2048x64
      = attn q k v := by
  funext i
  obtain ⟨u, h, p, d, rfl⟩ : ∃ (u : Fin 1) (h : Fin 16) (p : Fin 2048) (d : Fin 64), i = ix4 u h p d :=
    ⟨i 0, i 1, i 2, i 3, eq_ix4 i⟩
  obtain rfl : u = 0 := Subsingleton.elim _ _
  refine (shapeCast_abc_1abc_apply _ _ (0 : Fin 1) h p d).trans ?_
  unfold attn3 attn logit
  simp only [shapeCast_1abc_abc_apply]

/-- THE PROGRAM'S RESULT is `attn` of its three arguments. -/
theorem result_eq (c : Dev nD) :
    (Pipeline.afterTail₀ cfgs (dats m) 0 (V0 m) [hostOps1] c main_v0 : S1x16x2048x64.Idx → EReal)
      = attn (m ((c : Thread nD τ).loc main_arg0)) (m ((c : Thread nD τ).loc main_arg1)) (m ((c : Thread nD τ).loc main_arg2)) := by
  rw [tail_eq, final3, V_q, V_k, V_v]
  exact recast_attn _ _ _

/-- The frame run re-posted: the result array at `attn` of the arguments, the arguments unchanged. -/
theorem run : θ_run defs (onTc (τ := τ) (main (F := Ideal))) ⟨m, fun _ => 0, ρ⟩ fun r => ∀ c : Dev nD,
      r.2.mem ((c.tc : Thread nD τ).loc main_v0)
        = attn (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Attn.Arr

end
-- ==== Proof.lean ====
/-
  Dense scaled-dot-product attention, one head at a time, against its plain reference.

  Both programs compute, for head h, query row p and output column d,

      ( Σ_j exp(ℓ_j) · v[h, j, d] ) / ( Σ_j exp(ℓ_j) ),     ℓ_j = ( Σ_e q[h, p, e] · k[h, j, e] ) / 8

  (`Cert.Attn.attn`, Proof/Spec.lean). The kernel computes this quotient as written, one block of
  256 query rows per grid point with the key and value planes of the head resident, between two
  recasts that drop and restore the leading unit axis (Proof/KerPay.lean: the stored value at an
  index of the block; Proof/KerArr.lean: the blocks tile the output, and the result array is
  `attn` of the arguments, for any extended-real entries). The reference subtracts the row maximum
  from the logits, normalises the weights and then contracts with v; its scale `1 / sqrt 64` is
  `1/8` exactly. The two agree where the entries are real numbers, because the factor
  `1 / exp(max)` cancels between each weight and the normaliser (Proof/RefAttn.lean over
  `softmax_shift_ereal`); that the entries are real is what the precondition says
  (Proof/Finite.lean). The frames are the generated ones, the reference's being its generated run
  with the result dropped; nothing was rewritten when the kernel was idealized, so `preserves` is
  trivial.
-/
import proofs.«108297_g55705725829376_cont_9to1c4b_399_4_alg».proof.Defs
import proofs.«108297_g55705725829376_cont_9to1c4b_399_4_alg».proof.Proof.Gen.Kernel
import proofs.«108297_g55705725829376_cont_9to1c4b_399_4_alg».proof.Proof.Gen.Kernel.Skeleton
import proofs.«108297_g55705725829376_cont_9to1c4b_399_4_alg».proof.Proof.Gen.Kernel.Launch
import proofs.«108297_g55705725829376_cont_9to1c4b_399_4_alg».proof.Proof.Gen.Kernel.Points
import proofs.«108297_g55705725829376_cont_9to1c4b_399_4_alg».proof.Proof.Gen.Kernel.Frame
import proofs.«108297_g55705725829376_cont_9to1c4b_399_4_alg».proof.Proof.Gen.KernelIdeal
import proofs.«108297_g55705725829376_cont_9to1c4b_399_4_alg».proof.Proof.Gen.KernelIdeal.Skeleton
import proofs.«108297_g55705725829376_cont_9to1c4b_399_4_alg».proof.Proof.Gen.KernelIdeal.Launch
import proofs.«108297_g55705725829376_cont_9to1c4b_399_4_alg».proof.Proof.Gen.KernelIdeal.Points
import proofs.«108297_g55705725829376_cont_9to1c4b_399_4_alg».proof.Proof.Gen.KernelIdeal.Frame
import proofs.«108297_g55705725829376_cont_9to1c4b_399_4_alg».proof.Proof.Gen.ReferenceIdeal
import proofs.«108297_g55705725829376_cont_9to1c4b_399_4_alg».proof.Proof.Gen.ReferenceIdeal.Run
import proofs.«108297_g55705725829376_cont_9to1c4b_399_4_alg».proof.Proof.Gen.ReferenceIdeal.Read
import proofs.«108297_g55705725829376_cont_9to1c4b_399_4_alg».proof.Proof.Gen.Pre_finite_inputs
import proofs.«108297_g55705725829376_cont_9to1c4b_399_4_alg».proof.Proof.Spec
import proofs.«108297_g55705725829376_cont_9to1c4b_399_4_alg».proof.Proof.Finite
import proofs.«108297_g55705725829376_cont_9to1c4b_399_4_alg».proof.Proof.RefAttn
import proofs.«108297_g55705725829376_cont_9to1c4b_399_4_alg».proof.Proof.KerArr
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at `attn` of the arguments: the kernel for any entries, the reference because the
    precondition makes every entry a real number. -/
theorem algebraic : Cert.algebraic_KernelIdeal_ReferenceIdeal := by
  intro m ρ m' ρ' hpre hagree
  refine ⟨fun c => Cert.Attn.attn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Attn.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨hq, hk, hv⟩ := Cert.Attn.Finite.reals_of_pre _ _ _ (hpre c)
  refine (Cert.ReferenceIdeal.Read.val_main_v14_eq _ _ _).trans ?_
  rw [(hagree c).1, (hagree c).2.1, (hagree c).2.2]
  exact Cert.Attn.Ref.ref_eq_attn_of_real _ _ _ hq hk hv

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
